-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S128x128, .bf16⟩
  | .hbm, ⟨38, _⟩ => ⟨S128x128, .bf16⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S128x128, .bf16⟩
  | .hbm, ⟨57, _⟩ => ⟨S128x128, .bf16⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S128x64, .bf16⟩
  | .hbm, ⟨76, _⟩ => ⟨S128x64, .bf16⟩
  | .hbm, ⟨77, _⟩ => ⟨S1x64, .f32⟩
  | .hbm, ⟨78, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .bf16⟩
  | .local _ .vmem, ⟨23, _⟩ => ⟨S128x64, .bf16⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_cst : Ref sig .tc := ⟨.hbm, 67, rfl⟩
abbrev main_call1_v0 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics both programs compute, stated once.

  A graph of 50000 nodes and 800000 edges: `src` and `dst` name each edge's endpoints. One layer takes node
  features `h`, forms for every node the mean of its in-neighbours' features,
      mean[v] = (sum over edges e with dst[e] = v of h[src[e]]) / max(in-degree(v), 1),
  and returns `h · Ws + mean · Wn + b` (layers 0 and 1 followed by `max(·, 0)`). Three layers are chained:
  128 → 128 → 128 → 64 features.

  The aggregation is host work in both programs, the same operations in the same order, so it is carried
  here as ONE function `meanOf` that no proof opens. The dense part is what the two programs spell
  differently (a whole matrix product on the host; row blocks of 5000 through the matrix unit in the kernel):
  `D128` / `D64` are the host's spelling, `G128` / `G64` the same numbers written index by index as sums over
  the 128 input features, from operands laid out as the kernel holds them (the bias as a [1, d] row).
-/
import proofs.«116898_j19851338842541_1_alg».proof.Proof.Gen.ReferenceIdeal
import Idealize.ShloMosaic.PureOps.Ideal

noncomputable section

namespace Cert.Sage

open Cert.ReferenceIdeal Cert.ReferenceIdeal.Gen Idealize.ShloMosaic

variable {F : FTy → Type} [FloatOps F]

/-! ## The aggregation (host operations, shared) -/

/-- Edge sources with a negative index wrapped once by the node count, as a column of start indices. -/
def srcCol (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Every node's in-degree, at least one, as a column. -/
def degCol (dst : (⟨S800000, .i32⟩ : BufTy).Contents (Elt F)) : (⟨S50000x1, .f32⟩ : BufTy).Contents (Elt F) :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- The mean of the in-neighbours' feature rows given the degree column: gather the source rows, add them onto
    their destinations, divide by the degree. -/
def meanWith (deg : (⟨S50000x1, .f32⟩ : BufTy).Contents (Elt F))
    (h : (⟨S50000x128, .f32⟩ : BufTy).Contents (Elt F)) (src dst : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h (srcCol src)))
    (broadcastInDim S50000x128 ![0, 1] bcast_S50000x1_S50000x128_0_1 deg)

/-- The mean of the in-neighbours' feature rows. -/
def meanOf (h : (⟨S50000x128, .f32⟩ : BufTy).Contents (Elt F)) (src dst : (⟨S800000, .i32⟩ : BufTy).Contents (Elt F)) :
    (⟨S50000x128, .f32⟩ : BufTy).Contents (Elt F) :=
  meanWith (degCol dst) h src dst

/-! ## The dense part, as the host spells it -/

/-- A bias vector repeated down the 50000 rows. -/
def bias128 (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)
def bias64 (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)
def zeros128 : (⟨S50000x128, .f32⟩ : BufTy).Contents (Elt F) :=
  broadcastInDim S50000x128 ![] bcast_S_S50000x128 (constant S_ .f32 0x00000000#32)

/-- `max(h · Ws + mean · Wn + b, 0)`, 128 features out. -/
def D128 (h mean : (⟨S50000x128, .f32⟩ : BufTy).Contents (Elt F)) (Ws Wn : (⟨S128x128, .f32⟩ : BufTy).Contents (Elt F))
    (b : (⟨S128, .f32⟩ : BufTy).Contents (Elt F)) : (⟨S50000x128, .f32⟩ : BufTy).Contents (Elt F) :=
  maximumf
    (addf (addf (Host.dotGeneral dot_S50000x128_S128x128_S50000x128_1_0_0_1_n_n none h Ws)
                (Host.dotGeneral dot_S50000x128_S128x128_S50000x128_1_0_0_1_n_n none mean Wn))
          (bias128 b))
    zeros128

/-- `h · Ws + mean · Wn + b`, 64 features out. -/
def D64 (h mean : (⟨S50000x128, .f32⟩ : BufTy).Contents (Elt F)) (Ws Wn : (⟨S128x64, .f32⟩ : BufTy).Contents (Elt F))
    (b : (⟨S64, .f32⟩ : BufTy).Contents (Elt F)) : (⟨S50000x64, .f32⟩ : BufTy).Contents (Elt F) :=
  addf (addf (Host.dotGeneral dot_S50000x128_S128x64_S50000x64_1_0_0_1_n_n none h Ws)
             (Host.dotGeneral dot_S50000x128_S128x64_S50000x64_1_0_0_1_n_n none mean Wn))
       (bias64 b)

/-- The three layers chained. -/
def network (x : (⟨S50000x128, .f32⟩ : BufTy).Contents (Elt F)) (src dst : (⟨S800000, .i32⟩ : BufTy).Contents (Elt F))
    (Ws0 Wn0 : (⟨S128x128, .f32⟩ : BufTy).Contents (Elt F)) (b0 : (⟨S128, .f32⟩ : BufTy).Contents (Elt F))
    (Ws1 Wn1 : (⟨S128x128, .f32⟩ : BufTy).Contents (Elt F)) (b1 : (⟨S128, .f32⟩ : BufTy).Contents (Elt F))
    (Ws2 Wn2 : (⟨S128x64, .f32⟩ : BufTy).Contents (Elt F)) (b2 : (⟨S64, .f32⟩ : BufTy).Contents (Elt F)) :
    (⟨S50000x64, .f32⟩ : BufTy).Contents (Elt F) :=
  D64 (D128 (D128 x (meanOf x src dst) Ws0 Wn0 b0) (meanOf (D128 x (meanOf x src dst) Ws0 Wn0 b0) src dst) Ws1 Wn1 b1)
      (meanOf (D128 (D128 x (meanOf x src dst) Ws0 Wn0 b0) (meanOf (D128 x (meanOf x src dst) Ws0 Wn0 b0) src dst) Ws1 Wn1 b1) src dst)
      Ws2 Wn2 b2

/-! ## The dense part, index by index -/

/-- Row `i 0` of a [50000, 128] array at feature `k`. -/
abbrev rowAt (i : S50000x128.Idx) (k : Fin 128) : S50000x128.Idx := fun a => match a with
  | ⟨0, _⟩ => ⟨(i 0).val, (i 0).isLt⟩
  | ⟨1, _⟩ => ⟨k.val, k.isLt⟩
/-- Entry (`k`, `i 1`) of a [128, 128] weight matrix. -/
abbrev colAt (i : S50000x128.Idx) (k : Fin 128) : S128x128.Idx := fun a => match a with
  | ⟨0, _⟩ => ⟨k.val, k.isLt⟩
  | ⟨1, _⟩ => ⟨(i 1).val, (i 1).isLt⟩
/-- Entry `i 1` of a bias row [1, 128]. -/
abbrev biasAt (i : S50000x128.Idx) : S1x128.Idx := fun a => match a with
  | ⟨0, _⟩ => ⟨0, Nat.one_pos⟩
  | ⟨1, _⟩ => ⟨(i 1).val, (i 1).isLt⟩
/-- Row `i 0` of a [50000, 128] array at feature `k`, for an index of the [50000, 64] result. -/
abbrev rowAt64 (i : S50000x64.Idx) (k : Fin 128) : S50000x128.Idx := fun a => match a with
  | ⟨0, _⟩ => ⟨(i 0).val, (i 0).isLt⟩
  | ⟨1, _⟩ => ⟨k.val, k.isLt⟩
/-- Entry (`k`, `i 1`) of a [128, 64] weight matrix. -/
abbrev colAt64 (i : S50000x64.Idx) (k : Fin 128) : S128x64.Idx := fun a => match a with
  | ⟨0, _⟩ => ⟨k.val, k.isLt⟩
  | ⟨1, _⟩ => ⟨(i 1).val, (i 1).isLt⟩
/-- Entry `i 1` of a bias row [1, 64]. -/
abbrev biasAt64 (i : S50000x64.Idx) : S1x64.Idx := fun a => match a with
  | ⟨0, _⟩ => ⟨0, Nat.one_pos⟩
  | ⟨1, _⟩ => ⟨(i 1).val, (i 1).isLt⟩

/-- The bias vector's entry that entry `j` of its [1, 128] row form holds. -/
abbrev biasSrc (j : S1x128.Idx) : S128.Idx := fun a => match a with
  | ⟨0, _⟩ => ⟨(j 1).val, (j 1).isLt⟩
/-- The bias vector's entry that entry `j` of its [1, 64] row form holds. -/
abbrev biasSrc64 (j : S1x64.Idx) : S64.Idx := fun a => match a with
  | ⟨0, _⟩ => ⟨(j 1).val, (j 1).isLt⟩

/-- `max(h · ws + mean · wn + b, 0)` entry by entry: two sums over the 128 input features and the bias row's entry. -/
def G128 (h mean : S50000x128.Idx → EReal) (ws wn : S128x128.Idx → EReal) (b : S1x128.Idx → EReal) : S50000x128.Idx → EReal :=
  fun i => max (((∑ k : Fin 128, h (rowAt i k) * ws (colAt i k)) + (∑ k : Fin 128, mean (rowAt i k) * wn (colAt i k))) + b (biasAt i)) 0

/-- `h · ws + mean · wn + b` entry by entry, 64 features out. -/
def G64 (h mean : S50000x128.Idx → EReal) (ws wn : S128x64.Idx → EReal) (b : S1x64.Idx → EReal) : S50000x64.Idx → EReal :=
  fun i => ((∑ k : Fin 128, h (rowAt64 i k) * ws (colAt64 i k)) + (∑ k : Fin 128, mean (rowAt64 i k) * wn (colAt64 i k))) + b (biasAt64 i)

end Cert.Sage

end
-- ==== Proof.KHost.lean ====
/-
  What the kernel program's host operations leave in the buffers each pallas_call reads, as terms of the launch
  memory: before every region the layer's input (the features, or the region before's result array), the mean of
  its in-neighbours' rows — the same aggregation each time, over the same edge lists and the one degree column
  computed before the first region —, the two weight matrices narrowed to bf16 (the same numbers at the extended
  reals) and the bias as a one-row matrix; and after the last region the result array is what that region left.
-/
import proofs.«116898_j19851338842541_1_alg».proof.Proof.KernelIdealFrame
import proofs.«116898_j19851338842541_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.GenP

variable (m : (ℓ : Loc nD τ sig) → Buf (Elt Ideal) ℓ) (ρ : Dev nD → PrngReg)

/-! ## The aggregation as the kernel program spells it

The host operations of the kernel program are the reference's, over the kernel program's own shape and dimension
records; those records have the reference's fields, so the two spellings are the same function. Stated for any
arithmetic, over variables for the arrays. -/

section Generic
variable {F : FTy → Type} [FloatOps F]

/-- The degree column, spelt over the kernel program's records. -/
theorem kdeg (dst : (⟨S800000, .i32⟩ : BufTy).Contents (Elt F)) :
    (broadcastInDim S50000x1 ![0] bcast_S50000_S50000x1_0
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 dst)
          (broadcastInDim S800000 ![] bcast_S_S800000 (constant S_ .f32 0x3F800000#32)))
        (broadcastInDim S50000 ![] bcast_S_S50000 (constant S_ .f32 0x3F800000#32)))
      : (⟨S50000x1, .f32⟩ : BufTy).Contents (Elt F))
      = Cert.Sage.degCol dst := rfl

/-- The mean given a degree column, spelt over the kernel program's records. -/
theorem kmean (deg : (⟨S50000x1, .f32⟩ : BufTy).Contents (Elt F))
    (h : (⟨S50000x128, .f32⟩ : BufTy).Contents (Elt F)) (src dst : (⟨S800000, .i32⟩ : BufTy).Contents (Elt F)) :
    (Host.divf
      (Host.scatterAdd scatter_S50000x128_S800000x1_S800000x128_1_0_0_1
        (broadcastInDim S50000x128 ![] bcast_S_S50000x128 (constant S_ .f32 0x00000000#32))
        (broadcastInDim S800000x1 ![0] bcast_S800000_S800000x1_0 dst)
        (Host.gather gather_S50000x128_S800000x1_S800000x128_1_0_n_n_0_1_1128 h
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src))))
      (broadcastInDim S50000x128 ![0, 1] bcast_S50000x1_S50000x128_0_1 deg)
      : (⟨S50000x128, .f32⟩ : BufTy).Contents (Elt F))
      = Cert.Sage.meanWith deg h src dst := rfl

end Generic

/-! ## What a host stretch leaves alone

Each stretch writes only its own fresh results; the references it writes are listed, and a reference off the list
keeps its contents through the stretch. -/

/-- The references the first stretch writes. -/
def wr0 : List (Ref sig .tc) :=
  [main_cst, main_v0, main_cst_0, main_v1, main_v2, main_v3, main_cst_1, main_v4, main_v5, main_v6, main_c, main_v7,
   main_v8, main_c_2, main_v9, main_v10, main_v11, main_v12, main_v13, main_cst_3, main_v14, main_v15, main_v16,
   main_v17, main_v18, main_v19, main_v20, main_v21]
/-- The references the second stretch writes. -/
def wr1 : List (Ref sig .tc) :=
  [main_c_4, main_v23, main_v24, main_c_5, main_v25, main_v26, main_v27, main_v28, main_v29, main_cst_6, main_v30,
   main_v31, main_v32, main_v33, main_v34, main_v35, main_v36, main_v37]
/-- The references the third stretch writes. -/
def wr2 : List (Ref sig .tc) :=
  [main_c_7, main_v39, main_v40, main_c_8, main_v41, main_v42, main_v43, main_v44, main_v45, main_cst_9, main_v46,
   main_v47, main_v48, main_v49, main_v50, main_v51, main_v52, main_v53]

theorem keep0 (W : Valuation τ sig (Elt Ideal)) {r : Ref sig .tc} (hr : r ∉ wr0) :
    StableHlo.after hostOps0 W (Proc.devRef .tc r) = W (Proc.devRef .tc r) := by
  refine StableHlo.after_of_writes_sub (W := wr0) hostOps0 W ?_ hr
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep1 (W : Valuation τ sig (Elt Ideal)) {r : Ref sig .tc} (hr : r ∉ wr1) :
    StableHlo.after hostOps1 W (Proc.devRef .tc r) = W (Proc.devRef .tc r) := by
  refine StableHlo.after_of_writes_sub (W := wr1) hostOps1 W ?_ hr
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep2 (W : Valuation τ sig (Elt Ideal)) {r : Ref sig .tc} (hr : r ∉ wr2) :
    StableHlo.after hostOps2 W (Proc.devRef .tc r) = W (Proc.devRef .tc r) := by
  refine StableHlo.after_of_writes_sub (W := wr2) hostOps2 W ?_ hr
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## One row from a vector -/

/-- A vector of 128 entries laid out as one row holds, at `j`, the vector's entry `j 1`. -/
theorem row128 (x : S128.Idx → EReal) (j : S1x128.Idx) :
    shapeCast S1x128 x shapeCasts_S128_S1x128 j = x (Cert.Sage.biasSrc j) := by
  refine shapeCast_apply x _ j (Cert.Sage.biasSrc j) ?_
  rw [Shape.rowMajor_val_two, Shape.rowMajor_val_one]
  have h0 : (j 0).val < 1 := (j 0).isLt
  show (j 1).val = (j 0).val * 128 + (j 1).val
  omega
/-- A vector of 64 entries laid out as one row holds, at `j`, the vector's entry `j 1`. -/
theorem row64 (x : S64.Idx → EReal) (j : S1x64.Idx) :
    shapeCast S1x64 x shapeCasts_S64_S1x64 j = x (Cert.Sage.biasSrc64 j) := by
  refine shapeCast_apply x _ j (Cert.Sage.biasSrc64 j) ?_
  rw [Shape.rowMajor_val_two, Shape.rowMajor_val_one]
  have h0 : (j 0).val < 1 := (j 0).isLt
  show (j 1).val = (j 0).val * 64 + (j 1).val
  omega

/-! ## The launch contents carried to each region's entry

No stretch and no region writes an argument, and the degree column is written once, by the first stretch; so at
every later boundary those references still hold the launch contents, respectively the degree column. -/

theorem W1_keep (c : Dev nD) {r : Ref sig .tc} (h0 : r ∉ wr0) :
    W1 m ρ c (Proc.devRef .tc r) = m ((c : Thread nD τ).loc r) :=
  keep0 (W0 m ρ c) h0

/-- The degree column the first stretch computes. -/
theorem W1_deg (c : Dev nD) :
    W1 m ρ c (Proc.devRef .tc main_v6) = Cert.Sage.degCol (m ((c : Thread nD τ).loc main_arg2)) := by
  show StableHlo.after hostOps0 (W0 m ρ c) (Proc.devRef .tc main_v6) = _
  after_results_simp
  exact kdeg _

theorem W2_keep (c : Dev nD) {r : Ref sig .tc} (h0 : r ∉ wr0) (ha : ∀ w, Pipeline.arrRef spec0 w ≠ r) :
    W2 m ρ c (Proc.devRef .tc r) = m ((c : Thread nD τ).loc r) :=
  (W2_of_ne m ρ c r ha).trans (W1_keep m ρ c h0)
theorem W2_deg (c : Dev nD) :
    W2 m ρ c (Proc.devRef .tc main_v6) = Cert.Sage.degCol (m ((c : Thread nD τ).loc main_arg2)) :=
  (W2_of_ne m ρ c main_v6 (by decide)).trans (W1_deg m ρ c)

theorem W3_keep (c : Dev nD) {r : Ref sig .tc} (h0 : r ∉ wr0) (ha : ∀ w, Pipeline.arrRef spec0 w ≠ r) (h1 : r ∉ wr1) :
    W3 m ρ c (Proc.devRef .tc r) = m ((c : Thread nD τ).loc r) :=
  (keep1 (W2 m ρ c) h1).trans (W2_keep m ρ c h0 ha)
theorem W3_deg (c : Dev nD) :
    W3 m ρ c (Proc.devRef .tc main_v6) = Cert.Sage.degCol (m ((c : Thread nD τ).loc main_arg2)) :=
  (keep1 (W2 m ρ c) (by decide)).trans (W2_deg m ρ c)

theorem W4_keep (c : Dev nD) {r : Ref sig .tc} (h0 : r ∉ wr0) (ha : ∀ w, Pipeline.arrRef spec0 w ≠ r) (h1 : r ∉ wr1)
    (hb : ∀ w, Pipeline.arrRef spec1 w ≠ r) :
    W4 m ρ c (Proc.devRef .tc r) = m ((c : Thread nD τ).loc r) :=
  (W4_of_ne m ρ c r hb).trans (W3_keep m ρ c h0 ha h1)
theorem W4_deg (c : Dev nD) :
    W4 m ρ c (Proc.devRef .tc main_v6) = Cert.Sage.degCol (m ((c : Thread nD τ).loc main_arg2)) :=
  (W4_of_ne m ρ c main_v6 (by decide)).trans (W3_deg m ρ c)

/-! ## Before the first region -/

theorem s0_h (c : Dev nD) : V1 m ρ c main_arg0 = (m ((c : Thread nD τ).loc main_arg0)) :=
  W1_keep m ρ c (by decide)
theorem s0_mean (c : Dev nD) : V1 m ρ c main_v18 = Cert.Sage.meanOf (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  refine (kmean _ _ _ _).trans ?_
  rw [kdeg]
  rfl
theorem s0_ws (c : Dev nD) (j : S128x128.Idx) : V1 m ρ c main_v19 j = (m ((c : Thread nD τ).loc main_arg3)) j := by
  show StableHlo.after hostOps0 (W0 m ρ c) (Proc.devRef .tc main_v19) j = _
  after_results_simp
  rfl
theorem s0_wn (c : Dev nD) (j : S128x128.Idx) : V1 m ρ c main_v20 j = (m ((c : Thread nD τ).loc main_arg4)) j := by
  show StableHlo.after hostOps0 (W0 m ρ c) (Proc.devRef .tc main_v20) j = _
  after_results_simp
  rfl
theorem s0_b (c : Dev nD) (j : S1x128.Idx) : V1 m ρ c main_v21 j = (m ((c : Thread nD τ).loc main_arg5)) (Cert.Sage.biasSrc j) := by
  show StableHlo.after hostOps0 (W0 m ρ c) (Proc.devRef .tc main_v21) j = _
  after_results_simp
  exact row128 (m ((c : Thread nD τ).loc main_arg5)) j

/-! ## Between the first and the second region -/

theorem s1_h (c : Dev nD) : V3 m ρ c main_v22 = (dat0 (V1 m ρ) c).arrAt 5 cfg0.N :=
  (keep1 (W2 m ρ c) (r := main_v22) (by decide)).trans (W2_arr m ρ c 5)
theorem s1_mean (c : Dev nD) : V3 m ρ c main_v34 = Cert.Sage.meanOf (V3 m ρ c main_v22) (m ((c : Thread nD τ).loc main_arg1)) (m ((c : Thread nD τ).loc main_arg2)) := by
  have e22 : V3 m ρ c main_v22 = W2 m ρ c (Proc.devRef .tc main_v22) := keep1 (W2 m ρ c) (by decide)
  rw [e22]
  show StableHlo.after hostOps1 (W2 m ρ c) (Proc.devRef .tc main_v34) = _
  after_results_simp
  rw [W2_keep m ρ c (r := main_arg1) (by decide) (by decide), W2_keep m ρ c (r := main_arg2) (by decide) (by decide),
    W2_deg m ρ c]
  exact kmean _ _ _ _
theorem s1_ws (c : Dev nD) (j : S128x128.Idx) : V3 m ρ c main_v35 j = (m ((c : Thread nD τ).loc main_arg6)) j := by
  show StableHlo.after hostOps1 (W2 m ρ c) (Proc.devRef .tc main_v35) j = _
  after_results_simp
  rw [W2_keep m ρ c (r := main_arg6) (by decide) (by decide)]
  rfl
theorem s1_wn (c : Dev nD) (j : S128x128.Idx) : V3 m ρ c main_v36 j = (m ((c : Thread nD τ).loc main_arg7)) j := by
  show StableHlo.after hostOps1 (W2 m ρ c) (Proc.devRef .tc main_v36) j = _
  after_results_simp
  rw [W2_keep m ρ c (r := main_arg7) (by decide) (by decide)]
  rfl
theorem s1_b (c : Dev nD) (j : S1x128.Idx) : V3 m ρ c main_v37 j = (m ((c : Thread nD τ).loc main_arg8)) (Cert.Sage.biasSrc j) := by
  show StableHlo.after hostOps1 (W2 m ρ c) (Proc.devRef .tc main_v37) j = _
  after_results_simp
  show shapeCast S1x128 (W2 m ρ c (Proc.devRef .tc main_arg8)) shapeCasts_S128_S1x128 j = _
  rw [W2_keep m ρ c (r := main_arg8) (by decide) (by decide)]
  exact row128 (m ((c : Thread nD τ).loc main_arg8)) j

/-! ## Between the second and the third region, and the result -/

theorem s2_h (c : Dev nD) : V5 m ρ c main_v38 = (dat1 (V3 m ρ) c).arrAt 5 cfg1.N :=
  (keep2 (W4 m ρ c) (r := main_v38) (by decide)).trans (W4_arr m ρ c 5)
theorem s2_mean (c : Dev nD) : V5 m ρ c main_v50 = Cert.Sage.meanOf (V5 m ρ c main_v38) (m ((c : Thread nD τ).loc main_arg1)) (m ((c : Thread nD τ).loc main_arg2)) := by
  have e38 : V5 m ρ c main_v38 = W4 m ρ c (Proc.devRef .tc main_v38) := keep2 (W4 m ρ c) (by decide)
  rw [e38]
  show StableHlo.after hostOps2 (W4 m ρ c) (Proc.devRef .tc main_v50) = _
  after_results_simp
  rw [W4_keep m ρ c (r := main_arg1) (by decide) (by decide) (by decide) (by decide),
    W4_keep m ρ c (r := main_arg2) (by decide) (by decide) (by decide) (by decide), W4_deg m ρ c]
  exact kmean _ _ _ _
theorem s2_ws (c : Dev nD) (j : S128x64.Idx) : V5 m ρ c main_v51 j = (m ((c : Thread nD τ).loc main_arg9)) j := by
  show StableHlo.after hostOps2 (W4 m ρ c) (Proc.devRef .tc main_v51) j = _
  after_results_simp
  rw [W4_keep m ρ c (r := main_arg9) (by decide) (by decide) (by decide) (by decide)]
  rfl
theorem s2_wn (c : Dev nD) (j : S128x64.Idx) : V5 m ρ c main_v52 j = (m ((c : Thread nD τ).loc main_arg10)) j := by
  show StableHlo.after hostOps2 (W4 m ρ c) (Proc.devRef .tc main_v52) j = _
  after_results_simp
  rw [W4_keep m ρ c (r := main_arg10) (by decide) (by decide) (by decide) (by decide)]
  rfl
theorem s2_b (c : Dev nD) (j : S1x64.Idx) : V5 m ρ c main_v53 j = (m ((c : Thread nD τ).loc main_arg11)) (Cert.Sage.biasSrc64 j) := by
  show StableHlo.after hostOps2 (W4 m ρ c) (Proc.devRef .tc main_v53) j = _
  after_results_simp
  show shapeCast S1x64 (W4 m ρ c (Proc.devRef .tc main_arg11)) shapeCasts_S64_S1x64 j = _
  rw [W4_keep m ρ c (r := main_arg11) (by decide) (by decide) (by decide) (by decide)]
  exact row64 (m ((c : Thread nD τ).loc main_arg11)) j
theorem out_eq (c : Dev nD) : W6 m ρ c (Proc.devRef .tc main_v54) = (dat2 (V5 m ρ) c).arrAt 5 cfg2.N :=
  W6_arr m ρ c 5

end Cert.KernelIdeal.Val

end
-- ==== Proof.KRegion0.lean ====
/-
  Region 0 computes the first layer's dense part: at grid point t, rows 5000 t … 5000 t + 4999 of the result are the
  block's features times the self weights plus the block's neighbour means times the neighbour weights (each a
  matrix product into a zero accumulator: the plain sum over the 128 input features) plus the bias row, clamped
  below at zero. The ten row blocks tile the result array, so after the region the whole array holds that function,
  entry by entry, of the five arrays the windows read.
-/
import proofs.«116898_j19851338842541_1_alg».proof.Proof.KernelIdealFrame
import proofs.«116898_j19851338842541_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.GenP

variable (V : (c : Dev nD) → (b : Ref sig .tc) → Buf (Elt Ideal) ((c : Thread nD τ).loc b))

open Idealize.ShloMosaic.ValueIdx

/-! Region 0 is the first layer's dense part: for each block of 5000 nodes, the block's features and the block's
    neighbour means each times a 128 × 128 weight matrix, the two products and the bias row added, clamped below at zero. -/
namespace R0

/-! ## One row block times a weight matrix, entry by entry -/

/-- The left operand of the block product is read on row `i 0` … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the summed feature, … -/
theorem lhs_feature (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … the right operand on the summed feature's row … -/
theorem rhs_feature (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in column `i 1`. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000, 128] block times a [128, 128] matrix, accumulated into zeros, at entry (`p`, `q`): the sum over the
    128 features of the block's row `p` against the matrix's column `q`. -/
theorem blockProduct_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_feature _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_feature _ _).trans hk
    | ⟨1, _⟩ => exact rhs_col _ _)
  rw [el, er]

/-! ## The body's payload at an entry -/

/-- What the body stores at entry (`p`, `q`) of its row block: the two block products and the bias row's entry
    added, clamped below at zero (the narrowing of the operands to bf16 is the identity on extended reals). -/
theorem payload_apply (x0 x1 : Vec Ideal S5000x128 .f32) (w2 w3 : Vec Ideal S128x128 .bf16) (b4 : Vec Ideal S1x128 .f32)
    (p : Fin 5000) (q : Fin 128) :
    k0_pay1 x0 x1 w2 w3 b4 (ix2 p q)
      = max (((∑ k : Fin 128, x0 (ix2 p k) * w2 (ix2 k q)) + (∑ k : Fin 128, x1 (ix2 p k) * w3 (ix2 k q))) + b4 (ix2 (0 : Fin 1) q)) 0 := by
  unfold k0_pay1
  simp only [shapeCast_self]
  show max (((matmul dot_S5000x128_S128x128_S5000x128_1_0_0_1_n_n none (truncf .bf16 x0 bitsLt_bf16_f32) w2 (constant (F := Ideal) S5000x128 .f32 0x00000000#32) (ix2 p q))
      + (matmul dot_S5000x128_S128x128_S5000x128_1_0_0_1_n_n none (truncf .bf16 x1 bitsLt_bf16_f32) w3 (constant (F := Ideal) S5000x128 .f32 0x00000000#32) (ix2 p q)))
      + broadcastTo S5000x128 b4 broadcasts_S1x128_S5000x128 (ix2 p q)) (Ideal.ofBits .f32 0x00000000#32) = _
  rw [blockProduct_apply, blockProduct_apply, broadcastTo_1b_ab_apply b4 broadcasts_S1x128_S5000x128 p q, Ideal.ofBits_zero_f32]
  rfl

/-! ## From the row blocks to the array -/

theorem zeroOffsets : (![0, 0] : Fin 2 → Nat) = fun _ => 0 := funext fun a => by fin_cases a <;> rfl

/-- The printed index maps, decided over the grid: at point `t` the two feature windows and the result window are on
    row block `t`, the weight and bias windows on their one block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s block of the node features is rows `5000 t … 5000 t + 4999` of the feature array. -/
theorem features_block (c : Dev nD) (t : Fin cfg0.N) (x : S5000x128.Idx) (j : S50000x128.Idx)
    (h0 : (j 0).val = t.val * 5000 + (x 0).val) (h1 : (j 1).val = (x 1).val) :
    (iblk0 V c 0 t : Vec Ideal S5000x128 .f32) x = (V c main_arg0 : S50000x128.Idx → EReal) j := by
  obtain ⟨e0, e1, -⟩ := blockIndex t
  unfold iblk0
  rw [View.read_apply]
  show V c main_arg0 _ = V c main_arg0 _
  congr 1
  funext a
  apply Fin.ext
  match a with
  | ⟨0, _⟩ => show win0_0.index t (0 : Fin 2) * 5000 + 1 * (x 0).val = (j 0).val; rw [e0, h0]; omega
  | ⟨1, _⟩ => show win0_0.index t (1 : Fin 2) * 128 + 1 * (x 1).val = (j 1).val; rw [e1, h1]; omega

/-- Point `t`'s block of the neighbour means is the same rows of the mean array. -/
theorem means_block (c : Dev nD) (t : Fin cfg0.N) (x : S5000x128.Idx) (j : S50000x128.Idx)
    (h0 : (j 0).val = t.val * 5000 + (x 0).val) (h1 : (j 1).val = (x 1).val) :
    (iblk0 V c 1 t : Vec Ideal S5000x128 .f32) x = (V c main_v18 : S50000x128.Idx → EReal) j := by
  obtain ⟨-, -, e0, e1, -⟩ := blockIndex t
  unfold iblk0
  rw [View.read_apply]
  show V c main_v18 _ = V c main_v18 _
  congr 1
  funext a
  apply Fin.ext
  match a with
  | ⟨0, _⟩ => show win0_1.index t (0 : Fin 2) * 5000 + 1 * (x 0).val = (j 0).val; rw [e0, h0]; omega
  | ⟨1, _⟩ => show win0_1.index t (1 : Fin 2) * 128 + 1 * (x 1).val = (j 1).val; rw [e1, h1]; omega

/-- Every point's block of the self weights is the whole matrix. -/
theorem selfWeights_block (c : Dev nD) (t : Fin cfg0.N) (x j : S128x128.Idx)
    (h0 : (j 0).val = (x 0).val) (h1 : (j 1).val = (x 1).val) :
    (iblk0 V c 2 t : Vec Ideal S128x128 .bf16) x = (V c main_v19 : S128x128.Idx → EReal) j := by
  obtain ⟨-, -, -, -, e0, e1, -⟩ := blockIndex t
  unfold iblk0
  rw [View.read_apply]
  show V c main_v19 _ = V c main_v19 _
  congr 1
  funext a
  apply Fin.ext
  match a with
  | ⟨0, _⟩ => show win0_2.index t (0 : Fin 2) * 128 + 1 * (x 0).val = (j 0).val; rw [e0, h0]; omega
  | ⟨1, _⟩ => show win0_2.index t (1 : Fin 2) * 128 + 1 * (x 1).val = (j 1).val; rw [e1, h1]; omega

/-- Every point's block of the neighbour weights is the whole matrix. -/
theorem meanWeights_block (c : Dev nD) (t : Fin cfg0.N) (x j : S128x128.Idx)
    (h0 : (j 0).val = (x 0).val) (h1 : (j 1).val = (x 1).val) :
    (iblk0 V c 3 t : Vec Ideal S128x128 .bf16) x = (V c main_v20 : S128x128.Idx → EReal) j := by
  obtain ⟨-, -, -, -, -, -, e0, e1, -⟩ := blockIndex t
  unfold iblk0
  rw [View.read_apply]
  show V c main_v20 _ = V c main_v20 _
  congr 1
  funext a
  apply Fin.ext
  match a with
  | ⟨0, _⟩ => show win0_3.index t (0 : Fin 2) * 128 + 1 * (x 0).val = (j 0).val; rw [e0, h0]; omega
  | ⟨1, _⟩ => show win0_3.index t (1 : Fin 2) * 128 + 1 * (x 1).val = (j 1).val; rw [e1, h1]; omega

/-- Every point's block of the bias is the whole bias row. -/
theorem bias_block (c : Dev nD) (t : Fin cfg0.N) (x j : S1x128.Idx)
    (h0 : (j 0).val = (x 0).val) (h1 : (j 1).val = (x 1).val) :
    (iblk0 V c 4 t : Vec Ideal S1x128 .f32) x = (V c main_v21 : S1x128.Idx → EReal) j := by
  obtain ⟨-, -, -, -, -, -, -, -, e0, e1, -⟩ := blockIndex t
  unfold iblk0
  rw [View.read_apply]
  show V c main_v21 _ = V c main_v21 _
  congr 1
  funext a
  apply Fin.ext
  match a with
  | ⟨0, _⟩ => show win0_4.index t (0 : Fin 2) * 1 + 1 * (x 0).val = (j 0).val; rw [e0, h0]; omega
  | ⟨1, _⟩ => show win0_4.index t (1 : Fin 2) * 128 + 1 * (x 1).val = (j 1).val; rw [e1, h1]; omega

/-- The payload's closed form is the layer's entry `i` once each loaded block's entries are the arrays' entries the
    layer reads at `i`. -/
theorem layer_of_blocks (h mean : S50000x128.Idx → EReal) (ws wn : S128x128.Idx → EReal) (b : S1x128.Idx → EReal)
    (x0 x1 : Vec Ideal S5000x128 .f32) (w2 w3 : Vec Ideal S128x128 .bf16) (b4 : Vec Ideal S1x128 .f32)
    (i : S50000x128.Idx) (p : Fin 5000) (q : Fin 128)
    (h0 : ∀ k : Fin 128, x0 (ix2 p k) = h (Cert.Sage.rowAt i k)) (h1 : ∀ k : Fin 128, x1 (ix2 p k) = mean (Cert.Sage.rowAt i k))
    (h2 : ∀ k : Fin 128, w2 (ix2 k q) = ws (Cert.Sage.colAt i k)) (h3 : ∀ k : Fin 128, w3 (ix2 k q) = wn (Cert.Sage.colAt i k))
    (h4 : b4 (ix2 (0 : Fin 1) q) = b (Cert.Sage.biasAt i)) :
    max (((∑ k : Fin 128, x0 (ix2 p k) * w2 (ix2 k q)) + (∑ k : Fin 128, x1 (ix2 p k) * w3 (ix2 k q))) + b4 (ix2 (0 : Fin 1) q)) 0
      = Cert.Sage.G128 h mean ws wn b i := by
  unfold Cert.Sage.G128
  simp only [h0, h1, h2, h3, h4]

/-- WHAT POINT `t` WRITES BACK is block `t` of the layer's result, computed from the five arrays as the region finds them. -/
theorem flushed_rowBlock (c : Dev nD) (t : Fin cfg0.N) :
    (dat0 (F := Ideal) V c).flushed 5 t
      = ((cfg0.win 5).blk t).view.read (Elt Ideal)
          (Cert.Sage.G128 (V c main_arg0) (V c main_v18) (V c main_v19) (V c main_v20) (V c main_v21)) := by
  show (cfg0.win 5).cut (grid0.coords t) ((dat0 (F := Ideal) V c).after 5 t) = _
  rw [after0_5]
  unfold out0_5
  rw [View.canon_unit_zero zeroOffsets]
  simp only [View.ld_unit_zero (S := S5000x128) zeroOffsets, View.ld_unit_zero (S := S128x128) zeroOffsets, View.ld_unit_zero (S := S1x128) zeroOffsets]
  funext y
  obtain ⟨p, q, rfl⟩ : ∃ (p : Fin 5000) (q : Fin 128), y = ix2 p q := ⟨y 0, y 1, eq_ix2 y⟩
  obtain ⟨-, -, -, -, -, -, -, -, -, -, e0, e1⟩ := blockIndex t
  show k0_pay1 (iblk0 V c 0 t) (iblk0 V c 1 t) (iblk0 V c 2 t) (iblk0 V c 3 t) (iblk0 V c 4 t) (ix2 p q) = _
  refine (payload_apply (iblk0 V c 0 t) (iblk0 V c 1 t) (iblk0 V c 2 t) (iblk0 V c 3 t) (iblk0 V c 4 t) p q).trans ?_
  show _ = Cert.Sage.G128 (V c main_arg0) (V c main_v18) (V c main_v19) (V c main_v20) (V c main_v21) (((cfg0.win 5).blk t).view.emb (ix2 p q))
  have hr : ((((cfg0.win 5).blk t).view.emb (ix2 p q)) 0).val = t.val * 5000 + p.val := by
    show win0_5.index t (0 : Fin 2) * 5000 + 1 * p.val = _; rw [e0]; omega
  have hc : ((((cfg0.win 5).blk t).view.emb (ix2 p q)) 1).val = q.val := by
    show win0_5.index t (1 : Fin 2) * 128 + 1 * q.val = _; rw [e1]; omega
  refine layer_of_blocks _ _ _ _ _ _ _ _ _ _ _ p q (fun k => ?_) (fun k => ?_) (fun k => ?_) (fun k => ?_) ?_
  · exact features_block V c t (ix2 p k) _ hr rfl
  · exact means_block V c t (ix2 p k) _ hr rfl
  · exact selfWeights_block V c t (ix2 k q) _ rfl hc
  · exact meanWeights_block V c t (ix2 k q) _ rfl hc
  · exact bias_block V c t (ix2 (0 : Fin 1) q) _ rfl hc

/-- An index of the result array is in point `t`'s block iff each coordinate is in the block's range on its axis. -/
theorem mem_rowBlock (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Row `r` of the result lies in the block of point `r / 5000`, and every point writes its block back: the ten row
    blocks cover the array. -/
theorem rows_covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, -, -, -, -, e0, e1⟩ := blockIndex ⟨(i 0).val / 5000, ht⟩
  refine ⟨⟨(i 0).val / 5000, ht⟩, flush0_5 _, ?_⟩
  rw [mem_rowBlock]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]
    omega

end R0

open R0

/-- Region 0's result array after the region, whatever the buffers held when it was entered (`V`): the dense
    part of the layer, entry by entry, of the five arrays its windows read. -/
theorem final0 (c : Dev nD) :
    (dat0 (F := Ideal) V c).arrAt 5 cfg0.N
      = Cert.Sage.G128 (V c main_arg0) (V c main_v18) (V c main_v19) (V c main_v20) (V c main_v21) :=
  (dat0 (F := Ideal) V c).arrAt_eq_of_cover 5
    (Cert.Sage.G128 (V c main_arg0) (V c main_v18) (V c main_v19) (V c main_v20) (V c main_v21))
    (fun t _ => flushed_rowBlock V c t) rows_covered

end Cert.KernelIdeal.Val

end
-- ==== Proof.KRegion1.lean ====
/-
  Region 1 computes the second layer's dense part: at grid point t, rows 5000 t … 5000 t + 4999 of the result are the
  block's features times the self weights plus the block's neighbour means times the neighbour weights (each a
  matrix product into a zero accumulator: the plain sum over the 128 input features) plus the bias row, clamped
  below at zero. The ten row blocks tile the result array, so after the region the whole array holds that function,
  entry by entry, of the five arrays the windows read.
-/
import proofs.«116898_j19851338842541_1_alg».proof.Proof.KernelIdealFrame
import proofs.«116898_j19851338842541_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.GenP
open Idealize.ShloMosaic.ValueIdx

variable (V : (c : Dev nD) → (b : Ref sig .tc) → Buf (Elt Ideal) ((c : Thread nD τ).loc b))

namespace R1

/-! ## The block's arithmetic at an entry -/

/-- Row axis of the left operand of the block product: the result's row. -/
theorem dotLhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Feature axis of the left operand: the summation index. -/
theorem dotLhs_feat (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Row axis of the weight matrix: the summation index. -/
theorem dotRhs_feat (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Column axis of the weight matrix: the result's column. -/
theorem dotRhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a weight matrix, accumulated into zero, at entry (p, q): the sum over the 128 features. -/
theorem blockProduct_apply (x : FVec Ideal S5000x128 .bf16) (w : FVec Ideal S128x128 .bf16) (p : Fin 5000) (q : Fin 128) :
    matmul (F := Ideal) dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dotLhs_row _ _
    | ⟨1, _⟩ => exact (dotLhs_feat _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dotRhs_feat _ _).trans hk
    | ⟨1, _⟩ => exact dotRhs_col _ _)
  rw [el, er]

/-- The body's arithmetic at entry (p, q) of a block: the two sums over the 128 input features (rounding to the
    narrower format is the identity on ideal values), the bias row's entry, clamped below at zero. -/
theorem pay_apply (x0 x1 : Vec Ideal S5000x128 .f32) (w2 w3 : Vec Ideal S128x128 .bf16) (b4 : Vec Ideal S1x128 .f32)
    (p : Fin 5000) (q : Fin 128) :
    k1_pay1 (F := Ideal) x0 x1 w2 w3 b4 (ix2 p q)
      = max ((∑ k : Fin 128, x0 (ix2 p k) * w2 (ix2 k q)) + (∑ k : Fin 128, x1 (ix2 p k) * w3 (ix2 k q)) + b4 (ix2 0 q)) 0 := by
  unfold k1_pay1
  rw [shapeCast_self x0, shapeCast_self x1, shapeCast_self w2, shapeCast_self w3, shapeCast_self b4]
  show max ((matmul (F := Ideal) dot_S5000x128_S128x128_S5000x128_1_0_0_1_n_n none (x0 : FVec Ideal S5000x128 .bf16) w2 (constant (F := Ideal) S5000x128 .f32 0x00000000#32) (ix2 p q))
      + (matmul (F := Ideal) dot_S5000x128_S128x128_S5000x128_1_0_0_1_n_n none (x1 : FVec Ideal S5000x128 .bf16) w3 (constant (F := Ideal) S5000x128 .f32 0x00000000#32) (ix2 p q))
      + broadcastTo S5000x128 b4 broadcasts_S1x128_S5000x128 (ix2 p q)) (Ideal.ofBits .f32 0x00000000#32) = _
  rw [blockProduct_apply, blockProduct_apply, Ideal.ofBits_zero_f32]
  have hb : broadcastTo S5000x128 b4 broadcasts_S1x128_S5000x128 (ix2 p q) = b4 (ix2 0 q) :=
    broadcastTo_apply b4 broadcasts_S1x128_S5000x128 (ix2 p q) (ix2 0 q) (fun a => by
      match a with
      | ⟨0, _⟩ => rfl
      | ⟨1, _⟩ => rfl)
  rw [hb]

/-! ## From the blocks to the arrays -/

theorem offZero : (![0, 0] : Fin 2 → Nat) = fun _ => 0 := funext fun a => by fin_cases a <;> rfl

/-- The printed index maps, decided over the ten grid points: the row windows (0, 1 and the result 5) sit at block
    (t, 0), the weight and bias windows at block (0, 0). -/
theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, k) of the feature block at point t is row 5000·t + p of the feature array, at feature k. -/
theorem featBlock_read (c : Dev nD) (t : Fin cfg1.N) (p : Fin 5000) (k : Fin 128) (i : S50000x128.Idx)
    (hi : (i 0).val = t.val * 5000 + p.val) :
    iblk1 (F := Ideal) V c 0 t (ix2 p k) = V c main_v22 (Cert.Sage.rowAt i k) := by
  show V c main_v22 (((cfg1.win 0).blk t).view.emb (ix2 p k)) = _
  refine congrArg (V c main_v22) (funext fun a => Fin.ext ?_)
  obtain ⟨e0, e1, -⟩ := blockIdx t
  match a with
  | ⟨0, _⟩ => show win1_0.index t (0 : Fin 2) * 5000 + 1 * p.val = (i 0).val; omega
  | ⟨1, _⟩ => show win1_0.index t (1 : Fin 2) * 128 + 1 * k.val = k.val; omega

/-- Entry (p, k) of the neighbour-mean block at point t is the same row 5000·t + p of the mean array, at feature k. -/
theorem meanBlock_read (c : Dev nD) (t : Fin cfg1.N) (p : Fin 5000) (k : Fin 128) (i : S50000x128.Idx)
    (hi : (i 0).val = t.val * 5000 + p.val) :
    iblk1 (F := Ideal) V c 1 t (ix2 p k) = V c main_v34 (Cert.Sage.rowAt i k) := by
  show V c main_v34 (((cfg1.win 1).blk t).view.emb (ix2 p k)) = _
  refine congrArg (V c main_v34) (funext fun a => Fin.ext ?_)
  obtain ⟨-, -, e0, e1, -⟩ := blockIdx t
  match a with
  | ⟨0, _⟩ => show win1_1.index t (0 : Fin 2) * 5000 + 1 * p.val = (i 0).val; omega
  | ⟨1, _⟩ => show win1_1.index t (1 : Fin 2) * 128 + 1 * k.val = k.val; omega

/-- The self weight window holds the whole matrix at every point: its entry (k, q) is the matrix's. -/
theorem selfWeight_read (c : Dev nD) (t : Fin cfg1.N) (k q : Fin 128) (i : S50000x128.Idx)
    (hi : (i 1).val = q.val) :
    iblk1 (F := Ideal) V c 2 t (ix2 k q) = V c main_v35 (Cert.Sage.colAt i k) := by
  show V c main_v35 (((cfg1.win 2).blk t).view.emb (ix2 k q)) = _
  refine congrArg (V c main_v35) (funext fun a => Fin.ext ?_)
  obtain ⟨-, -, -, -, e0, e1, -⟩ := blockIdx t
  match a with
  | ⟨0, _⟩ => show win1_2.index t (0 : Fin 2) * 128 + 1 * k.val = k.val; omega
  | ⟨1, _⟩ => show win1_2.index t (1 : Fin 2) * 128 + 1 * q.val = (i 1).val; omega

/-- The neighbour weight window likewise. -/
theorem meanWeight_read (c : Dev nD) (t : Fin cfg1.N) (k q : Fin 128) (i : S50000x128.Idx)
    (hi : (i 1).val = q.val) :
    iblk1 (F := Ideal) V c 3 t (ix2 k q) = V c main_v36 (Cert.Sage.colAt i k) := by
  show V c main_v36 (((cfg1.win 3).blk t).view.emb (ix2 k q)) = _
  refine congrArg (V c main_v36) (funext fun a => Fin.ext ?_)
  obtain ⟨-, -, -, -, -, -, e0, e1, -⟩ := blockIdx t
  match a with
  | ⟨0, _⟩ => show win1_3.index t (0 : Fin 2) * 128 + 1 * k.val = k.val; omega
  | ⟨1, _⟩ => show win1_3.index t (1 : Fin 2) * 128 + 1 * q.val = (i 1).val; omega

/-- The bias window holds the whole bias row at every point: its entry (0, q) is the row's. -/
theorem bias_read (c : Dev nD) (t : Fin cfg1.N) (q : Fin 128) (i : S50000x128.Idx)
    (hi : (i 1).val = q.val) :
    iblk1 (F := Ideal) V c 4 t (ix2 (0 : Fin 1) q) = V c main_v37 (Cert.Sage.biasAt i) := by
  show V c main_v37 (((cfg1.win 4).blk t).view.emb (ix2 (0 : Fin 1) q)) = _
  refine congrArg (V c main_v37) (funext fun a => Fin.ext ?_)
  obtain ⟨-, -, -, -, -, -, -, -, e0, e1, -⟩ := blockIdx t
  match a with
  | ⟨0, _⟩ => show win1_4.index t (0 : Fin 2) * 1 + 1 * (0 : Fin 1).val = 0; rw [e0]; rfl
  | ⟨1, _⟩ => show win1_4.index t (1 : Fin 2) * 128 + 1 * q.val = (i 1).val; omega

/-- Entry (p, q) of the result block at point t sits at row 5000·t + p, column q of the result array. -/
theorem resultBlock_at (t : Fin cfg1.N) (p : Fin 5000) (q : Fin 128) :
    ((((cfg1.win 5).blk t).view.emb (ix2 p q) : S50000x128.Idx) 0).val = t.val * 5000 + p.val
    ∧ ((((cfg1.win 5).blk t).view.emb (ix2 p q) : S50000x128.Idx) 1).val = q.val := by
  obtain ⟨-, -, -, -, -, -, -, -, -, -, e0, e1⟩ := blockIdx t
  constructor
  · show win1_5.index t (0 : Fin 2) * 5000 + 1 * p.val = _; omega
  · show win1_5.index t (1 : Fin 2) * 128 + 1 * q.val = _; omega

/-- What point t writes back is block t of the dense layer of the five arrays as the region finds them. -/
theorem flushed_eq (c : Dev nD) (t : Fin cfg1.N) :
    (dat1 (F := Ideal) V c).flushed 5 t = ((cfg1.win 5).blk t).view.read (Elt Ideal)
      (Cert.Sage.G128 (V c main_v22) (V c main_v34) (V c main_v35) (V c main_v36) (V c main_v37)) := by
  show (cfg1.win 5).cut (grid1.coords t) ((dat1 V c).after 5 t) = _
  rw [after1_5]
  unfold out1_5
  rw [View.canon_unit_zero offZero]
  simp only [View.ld_unit_zero (S := S5000x128) offZero, View.ld_unit_zero (S := S128x128) offZero, View.ld_unit_zero (S := S1x128) offZero]
  funext y
  obtain ⟨p, q, rfl⟩ : ∃ (p : Fin 5000) (q : Fin 128), y = ix2 p q := ⟨y 0, y 1, eq_ix2 y⟩
  obtain ⟨hrow, hcol⟩ := resultBlock_at t p q
  show k1_pay1 (F := Ideal) (iblk1 V c 0 t) (iblk1 V c 1 t) (iblk1 V c 2 t) (iblk1 V c 3 t) (iblk1 V c 4 t) (ix2 p q)
    = Cert.Sage.G128 (V c main_v22) (V c main_v34) (V c main_v35) (V c main_v36) (V c main_v37) (((cfg1.win 5).blk t).view.emb (ix2 p q))
  refine (pay_apply _ _ _ _ _ p q).trans ?_
  unfold Cert.Sage.G128
  refine congrArg (fun z => max z 0) (congrArg₂ (· + ·) (congrArg₂ (· + ·)
    (Finset.sum_congr rfl fun k _ => congrArg₂ (· * ·) ?_ ?_)
    (Finset.sum_congr rfl fun k _ => congrArg₂ (· * ·) ?_ ?_)) ?_)
  · exact featBlock_read V c t p k _ hrow
  · exact selfWeight_read V c t k q _ hcol
  · exact meanBlock_read V c t p k _ hrow
  · exact meanWeight_read V c t k q _ hcol
  · exact bias_read V c t q _ hcol

/-- An index of the result array is in point t's block iff each coordinate is in the block's range on its axis. -/
theorem mem_resultBlock (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- The ten blocks of 5000 rows tile the 50000 rows: row r lies in the block of point r / 5000, and every point
    writes its block back. -/
theorem rows_covered (i : S50000x128.Idx) :
    ∃ t : Fin cfg1.N, (cfg1.win 5).flush t = true ∧ i ∈ ((cfg1.win 5).blk t).view.set := by
  have hr : (i 0).val < 50000 := (i 0).isLt
  have hq : (i 1).val < 128 := (i 1).isLt
  have hN : cfg1.N = 10 := N_1
  have hlt : (i 0).val / 5000 < cfg1.N := by rw [hN]; omega
  obtain ⟨-, -, -, -, -, -, -, -, -, -, e0, e1⟩ := blockIdx ⟨(i 0).val / 5000, hlt⟩
  refine ⟨⟨(i 0).val / 5000, hlt⟩, flush1_5 _, ?_⟩
  rw [mem_resultBlock]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e1]; omega

end R1

open R1

/-- Region 1's result array after the region, whatever the buffers held when it was entered (`V`): the dense
    part of the layer, entry by entry, of the five arrays its windows read. -/
theorem final1 (c : Dev nD) :
    (dat1 (F := Ideal) V c).arrAt 5 cfg1.N
      = Cert.Sage.G128 (V c main_v22) (V c main_v34) (V c main_v35) (V c main_v36) (V c main_v37) :=
  (dat1 (F := Ideal) V c).arrAt_eq_of_cover 5
    (Cert.Sage.G128 (V c main_v22) (V c main_v34) (V c main_v35) (V c main_v36) (V c main_v37))
    (fun t _ => flushed_eq V c t) rows_covered

end Cert.KernelIdeal.Val

end
-- ==== Proof.KRegion2.lean ====
/-
  Region 2 computes the third layer (64 features out, no clamp at zero)'s dense part: at grid point t, rows 5000 t … 5000 t + 4999 of the result are the
  block's features times the self weights plus the block's neighbour means times the neighbour weights (each a
  matrix product into a zero accumulator: the plain sum over the 128 input features) plus the bias row. The ten row blocks tile the result array, so after the region the whole array holds that function,
  entry by entry, of the five arrays the windows read.
-/
import proofs.«116898_j19851338842541_1_alg».proof.Proof.KernelIdealFrame
import proofs.«116898_j19851338842541_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.GenP

variable (V : (c : Dev nD) → (b : Ref sig .tc) → Buf (Elt Ideal) ((c : Thread nD τ).loc b))

namespace R2

open Idealize.ShloMosaic.ValueIdx

/-! ## The block product at an entry

The matrix unit contracts axis 1 of a [5000, 128] block with axis 0 of a [128, 64] weight matrix. At output entry
(p, q) and contraction index k the operands are read at (p, k) and (k, q). -/

/-- The left operand's row is the output's row. -/
theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contraction index. -/
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contraction index. -/
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block product accumulated into zero, at entry (p, q): the sum over the 128 input features. -/
theorem blockProduct_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  show FloatOps.matmul dot_S5000x128_S128x64_S5000x64_1_0_0_1_n_n none l r (constant (F := Ideal) S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row repeated down the 5000 rows of a block, at entry (p, q): the row's entry q. -/
theorem biasRows_apply (b : FVec Ideal S1x64 .f32) (p : Fin 5000) (q : Fin 64) :
    broadcastTo S5000x64 b broadcasts_S1x64_S5000x64 (ix2 p q) = b (ix2 (0 : Fin 1) q) := by
  refine broadcastTo_apply b broadcasts_S1x64_S5000x64 (ix2 p q) (ix2 (0 : Fin 1) q) fun a => ?_
  match a with
  | ⟨0, _⟩ => rfl
  | ⟨1, _⟩ => rfl

/-- THE BODY'S ARITHMETIC at entry (p, q) of a block: the two products' sums and the bias row's entry. -/
theorem payload_apply (x0 x1 : Vec Ideal S5000x128 .f32) (w2 w3 : Vec Ideal S128x64 .bf16) (b4 : Vec Ideal S1x64 .f32)
    (p : Fin 5000) (q : Fin 64) :
    k2_pay1 (F := Ideal) x0 x1 w2 w3 b4 (ix2 p q)
      = ((∑ k : Fin 128, x0 (ix2 p k) * w2 (ix2 k q)) + (∑ k : Fin 128, x1 (ix2 p k) * w3 (ix2 k q))) + b4 (ix2 (0 : Fin 1) q) := by
  unfold k2_pay1
  simp only [shapeCast_self]
  refine congrArg₂ (· + ·) (congrArg₂ (· + ·) ?_ ?_) ?_
  · exact blockProduct_apply _ _ p q
  · exact blockProduct_apply _ _ p q
  · exact biasRows_apply _ p q

/-! ## From blocks to the array -/

theorem zeroOffsets : (![0, 0] : Fin 2 → Nat) = fun _ => 0 := funext fun a => by fin_cases a <;> rfl

/-- The printed index maps over the grid: the two feature windows and the result window take row block `t`, column
    block 0; the weight and bias windows always take block (0, 0). -/
theorem blockIndices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t` is rows `5000 t … 5000 t + 4999` of the node features. -/
theorem featureBlock_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v38 : S50000x128.Idx → EReal) k := by
  obtain ⟨e0, e1, -⟩ := blockIndices t
  unfold iblk2
  rw [View.read_apply]
  show V c main_v38 _ = V c main_v38 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- Window 1's block at point `t` is the same rows of the neighbour means. -/
theorem meanBlock_apply (c : Dev nD) (t : Fin cfg2.N) (x : S5000x128.Idx) (k : S50000x128.Idx)
    (hk0 : (k 0).val = 5000 * t.val + (x 0).val) (hk1 : (k 1).val = (x 1).val) :
    (iblk2 V c 1 t : Vec Ideal S5000x128 .f32) x = (V c main_v50 : S50000x128.Idx → EReal) k := by
  obtain ⟨-, -, e0, e1, -⟩ := blockIndices t
  unfold iblk2
  rw [View.read_apply]
  show V c main_v50 _ = V c main_v50 _
  congr 1
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 128 + 1 * (x 1).val = (k 1).val; rw [e1, hk1]; omega

/-- Window 2's block is the whole self weight matrix at every point. -/
theorem selfWeightBlock_apply (c : Dev nD) (t : Fin cfg2.N) (x k : S128x64.Idx)
    (hk0 : (k 0).val = (x 0).val) (hk1 : (k 1).val = (x 1).val) :
    (iblk2 V c 2 t : Vec Ideal S128x64 .bf16) x = (V c main_v51 : S128x64.Idx → EReal) k := by
  obtain ⟨-, -, -, -, e0, e1, -⟩ := blockIndices t
  unfold iblk2
  rw [View.read_apply]
  show V c main_v51 _ = V c main_v51 _
  congr 1
  funext a
  apply Fin.ext
  match a with
  | ⟨0, _⟩ => show win2_2.index t (0 : Fin 2) * 128 + 1 * (x 0).val = (k 0).val; rw [e0, hk0]; omega
  | ⟨1, _⟩ => show win2_2.index t (1 : Fin 2) * 64 + 1 * (x 1).val = (k 1).val; rw [e1, hk1]; omega

/-- Window 3's block is the whole neighbour weight matrix at every point. -/
theorem meanWeightBlock_apply (c : Dev nD) (t : Fin cfg2.N) (x k : S128x64.Idx)
    (hk0 : (k 0).val = (x 0).val) (hk1 : (k 1).val = (x 1).val) :
    (iblk2 V c 3 t : Vec Ideal S128x64 .bf16) x = (V c main_v52 : S128x64.Idx → EReal) k := by
  obtain ⟨-, -, -, -, -, -, e0, e1, -⟩ := blockIndices t
  unfold iblk2
  rw [View.read_apply]
  show V c main_v52 _ = V c main_v52 _
  congr 1
  funext a
  apply Fin.ext
  match a with
  | ⟨0, _⟩ => show win2_3.index t (0 : Fin 2) * 128 + 1 * (x 0).val = (k 0).val; rw [e0, hk0]; omega
  | ⟨1, _⟩ => show win2_3.index t (1 : Fin 2) * 64 + 1 * (x 1).val = (k 1).val; rw [e1, hk1]; omega

/-- Window 4's block is the whole bias row at every point. -/
theorem biasBlock_apply (c : Dev nD) (t : Fin cfg2.N) (x k : S1x64.Idx)
    (hk0 : (k 0).val = (x 0).val) (hk1 : (k 1).val = (x 1).val) :
    (iblk2 V c 4 t : Vec Ideal S1x64 .f32) x = (V c main_v53 : S1x64.Idx → EReal) k := by
  obtain ⟨-, -, -, -, -, -, -, -, e0, e1, -⟩ := blockIndices t
  unfold iblk2
  rw [View.read_apply]
  show V c main_v53 _ = V c main_v53 _
  congr 1
  funext a
  apply Fin.ext
  match a with
  | ⟨0, _⟩ => show win2_4.index t (0 : Fin 2) * 1 + 1 * (x 0).val = (k 0).val; rw [e0, hk0]; omega
  | ⟨1, _⟩ => show win2_4.index t (1 : Fin 2) * 64 + 1 * (x 1).val = (k 1).val; rw [e1, hk1]; omega

/-- Entry (p, q) of the result window's block at point `t` sits at row `5000 t + p`, column `q` of the result array. -/
theorem resultBlock_emb (t : Fin cfg2.N) (p : Fin 5000) (q : Fin 64) :
    ((((cfg2.win 5).blk t).view.emb (ix2 p q) : S50000x64.Idx) 0).val = 5000 * t.val + p.val
    ∧ ((((cfg2.win 5).blk t).view.emb (ix2 p q) : S50000x64.Idx) 1).val = q.val := by
  obtain ⟨-, -, -, -, -, -, -, -, -, -, e0, e1⟩ := blockIndices t
  constructor
  · show win2_5.index t (0 : Fin 2) * 5000 + 1 * p.val = _; rw [e0]; omega
  · show win2_5.index t (1 : Fin 2) * 64 + 1 * q.val = _; rw [e1]; omega

/-- WHAT POINT `t` WRITES BACK is block `t` of the layer's dense part of the five arrays as the region finds them. -/
theorem flushed_eq (c : Dev nD) (t : Fin cfg2.N) :
    (dat2 (F := Ideal) V c).flushed 5 t = ((cfg2.win 5).blk t).view.read (Elt Ideal)
      (Cert.Sage.G64 (V c main_v38) (V c main_v50) (V c main_v51) (V c main_v52) (V c main_v53)) := by
  show (cfg2.win 5).cut (grid2.coords t) ((dat2 V c).after 5 t) = _
  rw [after2_5]
  unfold out2_5
  rw [View.canon_unit_zero zeroOffsets]
  simp only [View.ld_unit_zero (S := S5000x128) zeroOffsets, View.ld_unit_zero (S := S128x64) zeroOffsets, View.ld_unit_zero (S := S1x64) zeroOffsets]
  funext y
  obtain ⟨p, q, rfl⟩ : ∃ (p : Fin 5000) (q : Fin 64), y = ix2 p q := ⟨y 0, y 1, eq_ix2 y⟩
  obtain ⟨h0, h1⟩ := resultBlock_emb t p q
  show k2_pay1 (F := Ideal) (iblk2 V c 0 t) (iblk2 V c 1 t) (iblk2 V c 2 t) (iblk2 V c 3 t) (iblk2 V c 4 t) (ix2 p q)
    = Cert.Sage.G64 (V c main_v38) (V c main_v50) (V c main_v51) (V c main_v52) (V c main_v53) (((cfg2.win 5).blk t).view.emb (ix2 p q))
  refine (payload_apply _ _ _ _ _ p q).trans ?_
  unfold Cert.Sage.G64
  refine congrArg₂ (· + ·) (congrArg₂ (· + ·) (Finset.sum_congr rfl fun k _ => congrArg₂ (· * ·) ?_ ?_)
    (Finset.sum_congr rfl fun k _ => congrArg₂ (· * ·) ?_ ?_)) ?_
  · exact featureBlock_apply V c t _ _ h0 rfl
  · exact selfWeightBlock_apply V c t _ _ rfl h1
  · exact meanBlock_apply V c t _ _ h0 rfl
  · exact meanWeightBlock_apply V c t _ _ rfl h1
  · exact biasBlock_apply V c t _ _ rfl h1

/-- An index of the result array is in point `t`'s block iff each coordinate is in the block's range on its axis. -/
theorem mem_resultBlock (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v54).slice (win2_5.rect t)).set ↔ _
  rw [View.set_slice_whole, Rect.mem_set_unit]
  exact Iff.rfl

/-- The ten row blocks tile the result array: row `r` is in the block of point `r / 5000`, and every point writes back. -/
theorem resultBlocks_cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := blockIndices t
  refine ⟨t, flush2_5 t, ?_⟩
  rw [mem_resultBlock]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 64 ≤ (i 1).val ∧ (i 1).val < win2_5.index t (1 : Fin 2) * 64 + 64
    rw [e1]; omega

end R2

open R2

/-- Region 2's result array after the region, whatever the buffers held when it was entered (`V`): the dense
    part of the layer, entry by entry, of the five arrays its windows read. -/
theorem final2 (c : Dev nD) :
    (dat2 (F := Ideal) V c).arrAt 5 cfg2.N
      = Cert.Sage.G64 (V c main_v38) (V c main_v50) (V c main_v51) (V c main_v52) (V c main_v53) :=
  (dat2 (F := Ideal) V c).arrAt_eq_of_cover 5
    (Cert.Sage.G64 (V c main_v38) (V c main_v50) (V c main_v51) (V c main_v52) (V c main_v53))
    (fun t _ => flushed_eq V c t) resultBlocks_cover

end Cert.KernelIdeal.Val

end
-- ==== Proof.Dense.lean ====
/-
  The dense part of a layer is one function whichever way it is spelt: the host's whole matrix products
  plus a broadcast bias (and the clamp at zero) read at an entry are the two sums over the 128 input
  features plus the bias entry (and the maximum with zero).
-/
import proofs.«116898_j19851338842541_1_alg».proof.Proof.Spec
import Idealize.ShloMosaic.Lib.Pipeline.Value
import Idealize.ShloMosaic.Lib.ValueIdx
import Idealize.ShloMosaic.PureOps.Ideal.Laws

noncomputable section

namespace Cert.Sage

open Cert.ReferenceIdeal Cert.ReferenceIdeal.Gen Idealize.ShloMosaic

/-! ## A matrix product read at an entry -/

/-- Axis 0 of the left operand's index is the result's row. -/
theorem lhs128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- Axis 1 of the left operand's index is the contracted feature. -/
theorem lhs128_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- Axis 0 of the right operand's index is the contracted feature. -/
theorem rhs128_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- Axis 1 of the right operand's index is the result's column. -/
theorem rhs128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's [50000, 128] · [128, 128] product at an entry: the sum over the 128 contracted features of
    row times column. -/
theorem dot128_apply (x : (⟨S50000x128, .f32⟩ : BufTy).Contents (Elt Ideal)) (w : (⟨S128x128, .f32⟩ : BufTy).Contents (Elt Ideal)) (i : S50000x128.Idx) :
    Host.dotGeneral (F := Ideal) (φ₁ := .f32) (φ₂ := .f32) dot_S50000x128_S128x128_S50000x128_1_0_0_1_n_n none x w i = ∑ k : Fin 128, x (rowAt i k) * w (colAt i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = rowAt i k := funext fun a => Fin.ext (by
    match a with
    | ⟨0, _⟩ => exact lhs128_0 _ _
    | ⟨1, _⟩ => exact (lhs128_1 _ _).trans hk)
  have er : dot_S50000x128_S128x128_S50000x128_1_0_0_1_n_n.rhsIdx i ((ValueIdx.contrEquiv1 dot_S50000x128_S128x128_S50000x128_1_0_0_1_n_n 128 rfl rfl).symm k) = colAt i k := funext fun a => Fin.ext (by
    match a with
    | ⟨0, _⟩ => exact (rhs128_0 _ _).trans hk
    | ⟨1, _⟩ => exact rhs128_1 _ _)
  rw [el, er]

/-- Axis 0 of the left operand's index is the result's row (64 columns out). -/
theorem lhs64_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
/-- Axis 1 of the left operand's index is the contracted feature (64 columns out). -/
theorem lhs64_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
/-- Axis 0 of the right operand's index is the contracted feature (64 columns out). -/
theorem rhs64_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
/-- Axis 1 of the right operand's index is the result's column (64 columns out). -/
theorem rhs64_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's [50000, 128] · [128, 64] product at an entry: the sum over the 128 contracted features of
    row times column. -/
theorem dot64_apply (x : (⟨S50000x128, .f32⟩ : BufTy).Contents (Elt Ideal)) (w : (⟨S128x64, .f32⟩ : BufTy).Contents (Elt Ideal)) (i : S50000x64.Idx) :
    Host.dotGeneral (F := Ideal) (φ₁ := .f32) (φ₂ := .f32) dot_S50000x128_S128x64_S50000x64_1_0_0_1_n_n none x w i = ∑ k : Fin 128, x (rowAt64 i k) * w (colAt64 i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = rowAt64 i k := funext fun a => Fin.ext (by
    match a with
    | ⟨0, _⟩ => exact lhs64_0 _ _
    | ⟨1, _⟩ => exact (lhs64_1 _ _).trans hk)
  have er : dot_S50000x128_S128x64_S50000x64_1_0_0_1_n_n.rhsIdx i ((ValueIdx.contrEquiv1 dot_S50000x128_S128x64_S50000x64_1_0_0_1_n_n 128 rfl rfl).symm k) = colAt64 i k := funext fun a => Fin.ext (by
    match a with
    | ⟨0, _⟩ => exact (rhs64_0 _ _).trans hk
    | ⟨1, _⟩ => exact rhs64_1 _ _)
  rw [el, er]

/-! ## The broadcast bias and the broadcast zero read at an entry -/

section Layout
variable {F : FTy → Type} [FloatOps F]

/-- A bias vector as a [1, 128] row holds at entry `j` the vector's entry `j 1`. -/
theorem biasRow128_apply (b : (⟨S128, .f32⟩ : BufTy).Contents (Elt F)) (j : S1x128.Idx) :
    (broadcastInDim S1x128 ![1] bcast_S128_S1x128_1 b : (⟨S1x128, .f32⟩ : BufTy).Contents (Elt F)) j = b (biasSrc j) :=
  broadcastInDim_apply _ bcast_S128_S1x128_1 b j (biasSrc j) (fun a => match a with
    | ⟨0, _⟩ => by show (j 1).val = if (128 : Nat) = 1 then 0 else (j 1).val; rw [if_neg (by decide)])

/-- The bias repeated down the rows holds at entry `i` the vector's entry `i 1`. -/
theorem bias128_apply (b : (⟨S128, .f32⟩ : BufTy).Contents (Elt F)) (i : S50000x128.Idx) :
    bias128 (F := F) b i = b (biasSrc (biasAt i)) := by
  unfold bias128
  rw [← biasRow128_apply b (biasAt i)]
  generalize (broadcastInDim S1x128 ![1] bcast_S128_S1x128_1 b : (⟨S1x128, .f32⟩ : BufTy).Contents (Elt F)) = y
  exact broadcastInDim_apply _ bcast_S1x128_S50000x128_0_1 y i (biasAt i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A bias vector as a [1, 64] row holds at entry `j` the vector's entry `j 1`. -/
theorem biasRow64_apply (b : (⟨S64, .f32⟩ : BufTy).Contents (Elt F)) (j : S1x64.Idx) :
    (broadcastInDim S1x64 ![1] bcast_S64_S1x64_1 b : (⟨S1x64, .f32⟩ : BufTy).Contents (Elt F)) j = b (biasSrc64 j) :=
  broadcastInDim_apply _ bcast_S64_S1x64_1 b j (biasSrc64 j) (fun a => match a with
    | ⟨0, _⟩ => by show (j 1).val = if (64 : Nat) = 1 then 0 else (j 1).val; rw [if_neg (by decide)])

/-- The 64-entry bias repeated down the rows holds at entry `i` the vector's entry `i 1`. -/
theorem bias64_apply (b : (⟨S64, .f32⟩ : BufTy).Contents (Elt F)) (i : S50000x64.Idx) :
    bias64 (F := F) b i = b (biasSrc64 (biasAt64 i)) := by
  unfold bias64
  rw [← biasRow64_apply b (biasAt64 i)]
  generalize (broadcastInDim S1x64 ![1] bcast_S64_S1x64_1 b : (⟨S1x64, .f32⟩ : BufTy).Contents (Elt F)) = y
  exact broadcastInDim_apply _ bcast_S1x64_S50000x64_0_1 y i (biasAt64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The broadcast zero constant holds the zero word at every entry. -/
theorem zeros128_apply (i : S50000x128.Idx) :
    zeros128 (F := F) i = FloatOps.ofBits .f32 0x00000000#32 := by
  unfold zeros128
  generalize hy : constant (F := F) S_ .f32 0x00000000#32 = y
  rw [broadcastInDim_apply _ bcast_S_S50000x128 y i (fun a => a.elim0) (fun a => a.elim0), ← hy]
  rfl

end Layout

/-! ## The two spellings agree -/

/-- The index-by-index form, from the kernel's operands (weights in the narrower format, which at the extended
    reals are the same numbers; the bias as a row), is the host's spelling. -/
theorem G128_eq (h mean : (⟨S50000x128, .f32⟩ : BufTy).Contents (Elt Ideal))
    (Ws Wn : (⟨S128x128, .f32⟩ : BufTy).Contents (Elt Ideal)) (b : (⟨S128, .f32⟩ : BufTy).Contents (Elt Ideal))
    (ws wn : S128x128.Idx → EReal) (b' : S1x128.Idx → EReal)
    (hws : ∀ j, ws j = Ws j) (hwn : ∀ j, wn j = Wn j) (hb : ∀ j, b' j = b (biasSrc j)) :
    G128 h mean ws wn b' = D128 (F := Ideal) h mean Ws Wn b := by
  funext i
  have hD : D128 (F := Ideal) h mean Ws Wn b i
      = FloatOps.maximumf
          (FloatOps.addf
            (FloatOps.addf (Host.dotGeneral (F := Ideal) (φ₁ := .f32) (φ₂ := .f32) dot_S50000x128_S128x128_S50000x128_1_0_0_1_n_n none h Ws i)
                           (Host.dotGeneral (F := Ideal) (φ₁ := .f32) (φ₂ := .f32) dot_S50000x128_S128x128_S50000x128_1_0_0_1_n_n none mean Wn i))
            (bias128 (F := Ideal) b i))
          (zeros128 (F := Ideal) i) := rfl
  rw [hD, dot128_apply, dot128_apply, bias128_apply, zeros128_apply, Ideal.maximumf_def, Ideal.addf_def, Ideal.addf_def]
  have hz : (FloatOps.ofBits .f32 0x00000000#32 : Ideal .f32) = 0 := Ideal.ofBits_zero_f32
  rw [hz]
  show max (((∑ k : Fin 128, h (rowAt i k) * ws (colAt i k)) + (∑ k : Fin 128, mean (rowAt i k) * wn (colAt i k))) + b' (biasAt i)) 0 = _
  have es : (∑ k : Fin 128, h (rowAt i k) * ws (colAt i k)) = ∑ k : Fin 128, h (rowAt i k) * Ws (colAt i k) :=
    Finset.sum_congr rfl fun k _ => by rw [hws]
  have en : (∑ k : Fin 128, mean (rowAt i k) * wn (colAt i k)) = ∑ k : Fin 128, mean (rowAt i k) * Wn (colAt i k) :=
    Finset.sum_congr rfl fun k _ => by rw [hwn]
  rw [es, en, hb]

theorem G64_eq (h mean : (⟨S50000x128, .f32⟩ : BufTy).Contents (Elt Ideal))
    (Ws Wn : (⟨S128x64, .f32⟩ : BufTy).Contents (Elt Ideal)) (b : (⟨S64, .f32⟩ : BufTy).Contents (Elt Ideal))
    (ws wn : S128x64.Idx → EReal) (b' : S1x64.Idx → EReal)
    (hws : ∀ j, ws j = Ws j) (hwn : ∀ j, wn j = Wn j) (hb : ∀ j, b' j = b (biasSrc64 j)) :
    G64 h mean ws wn b' = D64 (F := Ideal) h mean Ws Wn b := by
  funext i
  have hD : D64 (F := Ideal) h mean Ws Wn b i
      = FloatOps.addf
          (FloatOps.addf (Host.dotGeneral (F := Ideal) (φ₁ := .f32) (φ₂ := .f32) dot_S50000x128_S128x64_S50000x64_1_0_0_1_n_n none h Ws i)
                         (Host.dotGeneral (F := Ideal) (φ₁ := .f32) (φ₂ := .f32) dot_S50000x128_S128x64_S50000x64_1_0_0_1_n_n none mean Wn i))
          (bias64 (F := Ideal) b i) := rfl
  rw [hD, dot64_apply, dot64_apply, bias64_apply, Ideal.addf_def, Ideal.addf_def]
  show ((∑ k : Fin 128, h (rowAt64 i k) * ws (colAt64 i k)) + (∑ k : Fin 128, mean (rowAt64 i k) * wn (colAt64 i k))) + b' (biasAt64 i) = _
  have es : (∑ k : Fin 128, h (rowAt64 i k) * ws (colAt64 i k)) = ∑ k : Fin 128, h (rowAt64 i k) * Ws (colAt64 i k) :=
    Finset.sum_congr rfl fun k _ => by rw [hws]
  have en : (∑ k : Fin 128, mean (rowAt64 i k) * wn (colAt64 i k)) = ∑ k : Fin 128, mean (rowAt64 i k) * Wn (colAt64 i k) :=
    Finset.sum_congr rfl fun k _ => by rw [hwn]
  rw [es, en, hb]

end Cert.Sage

end
-- ==== Proof.KValue.lean ====
/-
  The idealized kernel program's result as one function of its arguments.

  Each pallas_call leaves in its result array the dense part of a layer, entry by entry, of the arrays its
  windows read; the host stretch before it fills those arrays with the layer's input, the mean of its
  in-neighbours' rows, the weights (converted to a narrower format: the same numbers at the extended reals) and
  the bias as a row. Entry by entry the dense part is the host's spelling of it, so layer after layer the
  program computes `Cert.Sage.network` of its twelve arguments.
-/
import proofs.«116898_j19851338842541_1_alg».proof.Proof.KernelIdealRun
import proofs.«116898_j19851338842541_1_alg».proof.Proof.KHost
import proofs.«116898_j19851338842541_1_alg».proof.Proof.KRegion0
import proofs.«116898_j19851338842541_1_alg».proof.Proof.KRegion1
import proofs.«116898_j19851338842541_1_alg».proof.Proof.KRegion2
import proofs.«116898_j19851338842541_1_alg».proof.Proof.Dense

set_option maxRecDepth 16384

noncomputable section

open Idealize.ShloMosaic Idealize.ShloMosaic.TcCoe Idealize.SL.Sem

namespace Cert.KernelIdeal.Val

open Cert.KernelIdeal Cert.KernelIdeal.Gen Cert.KernelIdeal.GenP

variable (m : (ℓ : Loc nD τ sig) → Buf (Elt Ideal) ℓ) (ρ : Dev nD → PrngReg)

/-- The first layer's output: what region 0 leaves in its result array. -/
abbrev hidden1 (c : Dev nD) : (⟨Cert.ReferenceIdeal.S50000x128, .f32⟩ : BufTy).Contents (Elt Ideal) :=
  Cert.Sage.D128 (m ((c : Thread nD τ).loc main_arg0)) (Cert.Sage.meanOf (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))

/-- The second layer's output: what region 1 leaves in its result array. -/
abbrev hidden2 (c : Dev nD) : (⟨Cert.ReferenceIdeal.S50000x128, .f32⟩ : BufTy).Contents (Elt Ideal) :=
  Cert.Sage.D128 (hidden1 m c) (Cert.Sage.meanOf (hidden1 m c) (m ((c : Thread nD τ).loc main_arg1)) (m ((c : Thread nD τ).loc main_arg2))) (m ((c : Thread nD τ).loc main_arg6)) (m ((c : Thread nD τ).loc main_arg7)) (m ((c : Thread nD τ).loc main_arg8))

theorem layer0 (c : Dev nD) : (dat0 (V1 m ρ) c).arrAt 5 cfg0.N = hidden1 m c := by
  refine (final0 (V1 m ρ) c).trans ?_
  rw [s0_h m ρ c, s0_mean m ρ c]
  exact Cert.Sage.G128_eq _ _ _ _ _ _ _ _ (s0_ws m ρ c) (s0_wn m ρ c) (s0_b m ρ c)

theorem layer1 (c : Dev nD) : (dat1 (V3 m ρ) c).arrAt 5 cfg1.N = hidden2 m c := by
  refine (final1 (V3 m ρ) c).trans ?_
  rw [s1_mean m ρ c, s1_h m ρ c, layer0 m ρ c]
  exact Cert.Sage.G128_eq _ _ _ _ _ _ _ _ (s1_ws m ρ c) (s1_wn m ρ c) (s1_b m ρ c)

theorem layer2 (c : Dev nD) : (dat2 (V5 m ρ) c).arrAt 5 cfg2.N
    = Cert.Sage.D64 (hidden2 m c) (Cert.Sage.meanOf (hidden2 m c) (m ((c : Thread nD τ).loc main_arg1)) (m ((c : Thread nD τ).loc main_arg2))) (m ((c : Thread nD τ).loc main_arg9)) (m ((c : Thread nD τ).loc main_arg10)) (m ((c : Thread nD τ).loc main_arg11)) := by
  refine (final2 (V5 m ρ) c).trans ?_
  rw [s2_mean m ρ c, s2_h m ρ c, layer1 m ρ c]
  exact Cert.Sage.G64_eq _ _ _ _ _ _ _ _ (s2_ws m ρ c) (s2_wn m ρ c) (s2_b m ρ c)

/-- The result array at the last segment boundary is the network of the arguments. -/
theorem value (c : Dev nD) : W6 m ρ c (Proc.devRef .tc main_v54)
    = Cert.Sage.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (out_eq m ρ c).trans (layer2 m ρ c)

/-- The run, read: every weakly fair execution ends with the result array at the network of the arguments and
    the arguments as launched. -/
theorem run : θ_run defs (onTc (τ := τ) (main (F := Ideal))) ⟨m, fun _ => 0, ρ⟩ (fun r => ∀ c : Dev nD,
      r.2.mem ((c.tc : Thread nD τ).loc main_v54)
        = Cert.Sage.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (value m ρ c), (h c).2⟩) (run_named (F := Ideal) m ρ)

end Cert.KernelIdeal.Val

end
-- ==== Proof.RefNet.lean ====
/-
  The idealized reference program's result is the same network of its arguments: its operations, read one
  at a time, are the aggregation followed by the host's spelling of the dense part, layer after layer.
-/
import proofs.«116898_j19851338842541_1_alg».proof.Proof.Gen.ReferenceIdeal.Read
import proofs.«116898_j19851338842541_1_alg».proof.Proof.Spec

set_option maxRecDepth 16384

noncomputable section

namespace Cert.ReferenceIdeal.Net

open Cert.ReferenceIdeal Cert.ReferenceIdeal.Gen Cert.ReferenceIdeal.Read Idealize.ShloMosaic

variable {F : FTy → Type} [FloatOps F]

/-- The degree column. -/
theorem deg_eq (x2 : (⟨S800000, .i32⟩ : BufTy).Contents (Elt F)) : val_main_v6 (F := F) x2 = Cert.Sage.degCol x2 := rfl

/-- The mean of the in-neighbours' rows of the first layer's input. -/
theorem mean0_eq (x0 : (⟨S50000x128, .f32⟩ : BufTy).Contents (Elt F)) (x1 x2 : (⟨S800000, .i32⟩ : BufTy).Contents (Elt F)) :
    val_main_v18 (F := F) x0 x1 x2 = Cert.Sage.meanOf x0 x1 x2 := rfl

/-- The first layer. -/
theorem layer0_eq (x0 : (⟨S50000x128, .f32⟩ : BufTy).Contents (Elt F)) (x1 x2 : (⟨S800000, .i32⟩ : BufTy).Contents (Elt F))
    (x3 x4 : (⟨S128x128, .f32⟩ : BufTy).Contents (Elt F)) (x5 : (⟨S128, .f32⟩ : BufTy).Contents (Elt F)) :
    val_main_v25 (F := F) x0 x1 x2 x3 x4 x5 = Cert.Sage.D128 x0 (Cert.Sage.meanOf x0 x1 x2) x3 x4 x5 := rfl

/-- The second layer is the first layer's function of the first layer's output. -/
theorem layer1_eq (x0 : (⟨S50000x128, .f32⟩ : BufTy).Contents (Elt F)) (x1 x2 : (⟨S800000, .i32⟩ : BufTy).Contents (Elt F))
    (x3 x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F)) :
    val_main_v44 (F := F) x0 x1 x2 x3 x4 x5 x6 x7 x8
      = Cert.Sage.D128 (val_main_v25 (F := F) x0 x1 x2 x3 x4 x5) (Cert.Sage.meanOf (val_main_v25 (F := F) x0 x1 x2 x3 x4 x5) x1 x2) x6 x7 x8 := rfl

/-- The third layer, of the second layer's output. -/
theorem layer2_eq (x0 : (⟨S50000x128, .f32⟩ : BufTy).Contents (Elt F)) (x1 x2 : (⟨S800000, .i32⟩ : BufTy).Contents (Elt F))
    (x3 x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F))
    (x9 x10 : (⟨S128x64, .f32⟩ : BufTy).Contents (Elt F)) (x11 : (⟨S64, .f32⟩ : BufTy).Contents (Elt F)) :
    val_main_v62 (F := F) x0 x1 x2 x3 x4 x5 x6 x7 x8 x9 x10 x11
      = Cert.Sage.D64 (val_main_v44 (F := F) x0 x1 x2 x3 x4 x5 x6 x7 x8) (Cert.Sage.meanOf (val_main_v44 (F := F) x0 x1 x2 x3 x4 x5 x6 x7 x8) x1 x2) x9 x10 x11 := rfl

/-- The reference's result is the network of its arguments. -/
theorem val_eq_network (x0 : (⟨S50000x128, .f32⟩ : BufTy).Contents (Elt F)) (x1 x2 : (⟨S800000, .i32⟩ : BufTy).Contents (Elt F))
    (x3 x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F))
    (x9 x10 : (⟨S128x64, .f32⟩ : BufTy).Contents (Elt F)) (x11 : (⟨S64, .f32⟩ : BufTy).Contents (Elt F)) :
    val_main_v62 (F := F) x0 x1 x2 x3 x4 x5 x6 x7 x8 x9 x10 x11 = Cert.Sage.network x0 x1 x2 x3 x4 x5 x6 x7 x8 x9 x10 x11 := by
  rw [layer2_eq, layer1_eq, layer0_eq]
  rfl

end Cert.ReferenceIdeal.Net

end
-- ==== Proof.lean ====
/-
  A three-layer mean-aggregation graph network (50000 nodes, 800000 edges, features 128 → 128 → 128 → 64):
  the kernel program against its plain reference, over the extended reals.

  Both programs aggregate on the host with the same operations — per node the sum of its in-neighbours'
  feature rows, divided by the in-degree clamped below at one — and differ only in the dense part of a layer,
  `h · Ws + mean · Wn + b` (clamped at zero in the first two layers): the reference takes two whole matrix
  products; the kernel program runs a row-tiled pallas_call, 5000 rows a grid point, through the matrix unit
  with the operands narrowed to bf16. At the extended reals a change of format is the identity and a matrix
  product into a zero accumulator is the plain sum over the 128 input features, so entry by entry the two
  spellings are one number; no law beyond that is used, and finiteness of the inputs is never needed.

  The frames of the two kernel programs are the generated frame certificates; the reference's is its generated
  run with the result dropped; nothing was rewritten by the ideal
  pass, so `preserves` is trivial; `algebraic`: both runs end at `Cert.Sage.network` of the arguments.
-/
import proofs.«116898_j19851338842541_1_alg».proof.Defs
import proofs.«116898_j19851338842541_1_alg».proof.Proof.Gen.Kernel
import proofs.«116898_j19851338842541_1_alg».proof.Proof.Gen.KernelIdeal
import proofs.«116898_j19851338842541_1_alg».proof.Proof.Gen.ReferenceIdeal
import proofs.«116898_j19851338842541_1_alg».proof.Proof.Gen.Pre_finite_inputs
import proofs.«116898_j19851338842541_1_alg».proof.Proof.KernelFrame
import proofs.«116898_j19851338842541_1_alg».proof.Proof.KernelIdealFrame
import proofs.«116898_j19851338842541_1_alg».proof.Proof.KValue
import proofs.«116898_j19851338842541_1_alg».proof.Proof.Gen.ReferenceIdeal.Run
import proofs.«116898_j19851338842541_1_alg».proof.Proof.Gen.ReferenceIdeal.Read
import proofs.«116898_j19851338842541_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The reference runs and keeps its arguments: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the network of the arguments in
    their result arrays: the kernel program layer by layer through its three regions, the reference by its
    operations read one at a time. -/
theorem algebraic : Cert.algebraic_KernelIdeal_ReferenceIdeal := by
  intro m ρ m' ρ' _ hagree
  refine ⟨fun c => Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.ReferenceIdeal.Net.val_eq_network]
  obtain ⟨e0, e1, e2, e3, e4, e5, e6, e7, e8, e9, e10, e11⟩ := hagree c
  rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  frame_ref,
  trivial,
  algebraic⟩

end Cert.Proof

end
